-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : FVec F S64x64 .f32) (main_arg3 : FVec F S64 .f32) (main_arg4 : FVec F S64x40 .f32) (main_arg5 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1x64 : Shape := ⟨2, ![1, 64]⟩
abbrev S1x40 : Shape := ⟨2, ![1, 40]⟩
abbrev S10000x64 : Shape := ⟨2, ![10000, 64]⟩
abbrev S1300000x64 : Shape := ⟨2, ![1300000, 64]⟩
abbrev S10000x1 : Shape := ⟨2, ![10000, 1]⟩
abbrev S100000x40 : Shape := ⟨2, ![100000, 40]⟩
abbrev S10000x40 : Shape := ⟨2, ![10000, 40]⟩
abbrev S1300000x40 : Shape := ⟨2, ![1300000, 40]⟩

abbrev nBuf : Space → Nat
  | .hbm => 81
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S1300000x1, .f32⟩
  | .hbm, ⟨47, _⟩ => ⟨S1x64, .f32⟩
  | .hbm, ⟨48, _⟩ => ⟨S1x40, .f32⟩
  | .hbm, ⟨49, _⟩ => ⟨S100000x64, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x64, .f32⟩
  | .hbm, ⟨60, _⟩ => ⟨S_, .f32⟩
  | .hbm, ⟨61, _⟩ => ⟨S100000x64, .f32⟩
  | .hbm, ⟨62, _⟩ => ⟨S1300000x1, .i32⟩
  | .hbm, ⟨63, _⟩ => ⟨S100000x64, .f32⟩
  | .hbm, ⟨64, _⟩ => ⟨S100000x64, .f32⟩
  | .hbm, ⟨65, _⟩ => ⟨S100000x40, .f32⟩
  | .hbm, ⟨66, _⟩ => ⟨S_, .i32⟩
  | .hbm, ⟨67, _⟩ => ⟨S1300000, .i32⟩
  | .hbm, ⟨68, _⟩ => ⟨S1300000, .i1⟩
  | .hbm, ⟨69, _⟩ => ⟨S_, .i32⟩
  | .hbm, ⟨70, _⟩ => ⟨S1300000, .i32⟩
  | .hbm, ⟨71, _⟩ => ⟨S1300000, .i32⟩
  | .hbm, ⟨72, _⟩ => ⟨S1300000, .i32⟩
  | .hbm, ⟨73, _⟩ => ⟨S1300000x1, .i32⟩
  | .hbm, ⟨74, _⟩ => ⟨S1300000x40, .f32⟩
  | .hbm, ⟨75, _⟩ => ⟨S1300000x40, .f32⟩
  | .hbm, ⟨76, _⟩ => ⟨S_, .f32⟩
  | .hbm, ⟨77, _⟩ => ⟨S100000x40, .f32⟩
  | .hbm, ⟨78, _⟩ => ⟨S1300000x1, .i32⟩
  | .hbm, ⟨79, _⟩ => ⟨S100000x40, .f32⟩
  | .hbm, ⟨80, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | .local _ .vmem, ⟨23, _⟩ => ⟨S10000x1, .f32⟩
  | .local _ .vmem, ⟨24, _⟩ => ⟨S10000x1, .f32⟩
  | .local _ .vmem, ⟨25, _⟩ => ⟨S10000x40, .f32⟩
  | .local _ .vmem, ⟨26, _⟩ => ⟨S10000x40, .f32⟩
  | .local _ .vmem, ⟨27, _⟩ => ⟨S10000x40, .f32⟩
  | .local _ .vmem, ⟨28, _⟩ => ⟨S10000x40, .f32⟩
  | .local _ .vmem, ⟨29, _⟩ => ⟨S1x40, .f32⟩
  | .local _ .vmem, ⟨30, _⟩ => ⟨S10000x40, .f32⟩
  | .local _ .vmem, ⟨31, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![130], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![130], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S1300000_S1300000x1 : S1300000.ShapeCasts S1300000x1
  shapeCasts_S64_S1x64 : S64.ShapeCasts S1x64
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  broadcasts_S10000x1_S10000x40 : S10000x1.Broadcasts S10000x40
  bcast_S_S100000x40 : S_.BroadcastsInDim S100000x40 (![] : Fin 0 → Fin S100000x40.rank)
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x40_S10000x40_1_0_0_1_n_n_wf : DotDims.WF S10000x64 S64x40 S10000x40 [1] [0] [0] [1] [] []
  gather_S100000x40_S1300000x1_S1300000x40_1_0_n_n_0_1_140_wf : GatherDims.WF S100000x40 S1300000x1 S1300000x40 [1] [0] [] [0] [] 1 ![1, 40]
  scatter_S100000x40_S1300000x1_S1300000x40_1_0_0_1_wf : ScatterDims.WF S100000x40 S1300000x1 S1300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1300000x64.size a
  hwx1_0 : ∀ i : grid1.Coords, EltTy.bits .f32 = 32 ∨ (Rect.block (s := S1300000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1300000x1.size a
  hwx1_1 : ∀ i : grid1.Coords, EltTy.bits .f32 = 32 ∨ (Rect.block (s := S1300000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1300000x64.size a
  hwx1_2 : ∀ i : grid1.Coords, EltTy.bits .f32 = 32 ∨ (Rect.block (s := S1300000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S1300000x40.size a
  hwx4_0 : ∀ i : grid4.Coords, EltTy.bits .f32 = 32 ∨ (Rect.block (s := S1300000x40) S10000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1300000x1.size a
  hwx4_1 : ∀ i : grid4.Coords, EltTy.bits .f32 = 32 ∨ (Rect.block (s := S1300000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S1300000x40.size a
  hwx4_2 : ∀ i : grid4.Coords, EltTy.bits .f32 = 32 ∨ (Rect.block (s := S1300000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1300000x1_S1300000x40_1_0_n_n_0_1_140 : GatherDims S100000x40 S1300000x1 S1300000x40 where
  offsetDims := [1]
  collapsedSliceDims := [0]
  operandBatchingDims := []
  startIndicesBatchingDims := []
  startIndexMap := [0]
  indexVectorDim := 1
  sliceSizes := ![1, 40]
  wf := gather_S100000x40_S1300000x1_S1300000x40_1_0_n_n_0_1_140_wf
def scatter_S100000x40_S1300000x1_S1300000x40_1_0_0_1 : ScatterDims S100000x40 S1300000x1 S1300000x40 where
  updateWindowDims := [1]
  insertedWindowDims := [0]
  scatterDimsToOperandDims := [0]
  indexVectorDim := 1
  wf := scatter_S100000x40_S1300000x1_S1300000x40_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S10000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S100000x40 : Shape := ⟨2, ![100000, 40]⟩
abbrev S1300000x40 : Shape := ⟨2, ![1300000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S_, .f32⟩
  | .hbm, ⟨14, _⟩ => ⟨S1300000, .f32⟩
  | .hbm, ⟨15, _⟩ => ⟨S_, .f32⟩
  | .hbm, ⟨16, _⟩ => ⟨S100000, .f32⟩
  | .hbm, ⟨17, _⟩ => ⟨S1300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1300000, .i32⟩
  | .hbm, ⟨29, _⟩ => ⟨S1300000, .i1⟩
  | .hbm, ⟨30, _⟩ => ⟨S_, .i32⟩
  | .hbm, ⟨31, _⟩ => ⟨S1300000, .i32⟩
  | .hbm, ⟨32, _⟩ => ⟨S1300000, .i32⟩
  | .hbm, ⟨33, _⟩ => ⟨S1300000, .i32⟩
  | .hbm, ⟨34, _⟩ => ⟨S1300000x1, .i32⟩
  | .hbm, ⟨35, _⟩ => ⟨S1300000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S1300000, .f32⟩
  | .hbm, ⟨46, _⟩ => ⟨S100000x64, .f32⟩
  | .hbm, ⟨47, _⟩ => ⟨S_, .i32⟩
  | .hbm, ⟨48, _⟩ => ⟨S1300000, .i32⟩
  | .hbm, ⟨49, _⟩ => ⟨S1300000, .i1⟩
  | .hbm, ⟨50, _⟩ => ⟨S_, .i32⟩
  | .hbm, ⟨51, _⟩ => ⟨S1300000, .i32⟩
  | .hbm, ⟨52, _⟩ => ⟨S1300000, .i32⟩
  | .hbm, ⟨53, _⟩ => ⟨S1300000, .i32⟩
  | .hbm, ⟨54, _⟩ => ⟨S1300000x1, .i32⟩
  | .hbm, ⟨55, _⟩ => ⟨S1300000x64, .f32⟩
  | .hbm, ⟨56, _⟩ => ⟨S1300000x1, .f32⟩
  | .hbm, ⟨57, _⟩ => ⟨S1300000x64, .f32⟩
  | .hbm, ⟨58, _⟩ => ⟨S1300000x64, .f32⟩
  | .hbm, ⟨59, _⟩ => ⟨S_, .f32⟩
  | .hbm, ⟨60, _⟩ => ⟨S100000x64, .f32⟩
  | .hbm, ⟨61, _⟩ => ⟨S1300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S1300000, .i32⟩
  | .hbm, ⟨72, _⟩ => ⟨S1300000, .i1⟩
  | .hbm, ⟨73, _⟩ => ⟨S_, .i32⟩
  | .hbm, ⟨74, _⟩ => ⟨S1300000, .i32⟩
  | .hbm, ⟨75, _⟩ => ⟨S1300000, .i32⟩
  | .hbm, ⟨76, _⟩ => ⟨S1300000, .i32⟩
  | .hbm, ⟨77, _⟩ => ⟨S1300000x1, .i32⟩
  | .hbm, ⟨78, _⟩ => ⟨S1300000x40, .f32⟩
  | .hbm, ⟨79, _⟩ => ⟨S1300000x1, .f32⟩
  | .hbm, ⟨80, _⟩ => ⟨S1300000x40, .f32⟩
  | .hbm, ⟨81, _⟩ => ⟨S1300000x40, .f32⟩
  | .hbm, ⟨82, _⟩ => ⟨S_, .f32⟩
  | .hbm, ⟨83, _⟩ => ⟨S100000x40, .f32⟩
  | .hbm, ⟨84, _⟩ => ⟨S1300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1300000x1_S1300000x40_0_1 : S1300000x1.BroadcastsInDim S1300000x40 (![0, 1] : Fin 2 → Fin S1300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x40_S100000x40_1_0_0_1_n_n_wf : DotDims.WF S100000x64 S64x40 S100000x40 [1] [0] [0] [1] [] []
  gather_S100000x40_S1300000x1_S1300000x40_1_0_n_n_0_1_140_wf : GatherDims.WF S100000x40 S1300000x1 S1300000x40 [1] [0] [] [0] [] 1 ![1, 40]
  scatter_S100000x40_S1300000x1_S1300000x40_1_0_0_1_wf : ScatterDims.WF S100000x40 S1300000x1 S1300000x40 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1300000x1_S1300000x40_1_0_n_n_0_1_140 : GatherDims S100000x40 S1300000x1 S1300000x40 where
  offsetDims := [1]
  collapsedSliceDims := [0]
  operandBatchingDims := []
  startIndicesBatchingDims := []
  startIndexMap := [0]
  indexVectorDim := 1
  sliceSizes := ![1, 40]
  wf := gather_S100000x40_S1300000x1_S1300000x40_1_0_n_n_0_1_140_wf
def scatter_S100000x40_S1300000x1_S1300000x40_1_0_0_1 : ScatterDims S100000x40 S1300000x1 S1300000x40 where
  updateWindowDims := [1]
  insertedWindowDims := [0]
  scatterDimsToOperandDims := [0]
  indexVectorDim := 1
  wf := scatter_S100000x40_S1300000x1_S1300000x40_1_0_0_1_wf

class Facts : Prop extends Facts₀ where

variable [Facts]
-- ==== Proof.LibUnitAxis.lean ====
/-
  Adding a unit axis to a vector, two spellings: a reshape of n entries to an n x 1 column (or a 1 x n row) and a
  broadcast of the vector into that shape along its own axis read every entry from the same place, so they are one
  function.
-/
import Idealize.ShloMosaic.Lib.Pipeline.Value
import Idealize.ShloMosaic.Lib.ValueIdx

noncomputable section

namespace Cert.Lib.UnitAxis

open Idealize.ShloMosaic Idealize.ShloMosaic.ValueIdx

variable {α : Type}

/-- A vector reshaped to one column is the vector broadcast into the column shape along axis 0. -/
theorem reshape_col_eq_broadcastInDim {n : Nat} (y : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ y h = broadcastInDim ⟨2, ![n, 1]⟩ ![0] hb y := by
  funext i
  have hi0 : (i 0).val < n := (i 0).isLt
  have hi1 : (i 1).val < 1 := (i 1).isLt
  have e1 := shapeCast_apply y h i (ix1 (⟨(i 0).val, hi0⟩ : Fin n)) (by
    rw [Shape.rowMajor_val_two, Shape.rowMajor_val_one]; show (i 0).val = (i 0).val * 1 + (i 1).val; omega)
  have e2 := broadcastInDim_apply ![0] hb y i (ix1 (⟨(i 0).val, hi0⟩ : Fin n)) (by
    intro a
    match a with
    | ⟨0, _⟩ =>
      show (i 0).val = if n = 1 then 0 else (i 0).val
      split
      · omega
      · rfl)
  exact e1.trans e2.symm

/-- A vector reshaped to one row is the vector broadcast into the row shape along axis 1. -/
theorem reshape_row_eq_broadcastInDim {n : Nat} (y : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ y h = broadcastInDim ⟨2, ![1, n]⟩ ![1] hb y := by
  funext i
  have hi0 : (i 0).val < 1 := (i 0).isLt
  have hi1 : (i 1).val < n := (i 1).isLt
  have e1 := shapeCast_apply y h i (ix1 (⟨(i 1).val, hi1⟩ : Fin n)) (by
    rw [Shape.rowMajor_val_two, Shape.rowMajor_val_one]; show (i 1).val = (i 0).val * n + (i 1).val
    have : (i 0).val = 0 := by omega
    rw [this]; omega)
  have e2 := broadcastInDim_apply ![1] hb y i (ix1 (⟨(i 1).val, hi1⟩ : Fin n)) (by
    intro a
    match a with
    | ⟨0, _⟩ =>
      show (i 1).val = if n = 1 then 0 else (i 1).val
      split
      · omega
      · rfl)
  exact e1.trans e2.symm

end Cert.Lib.UnitAxis

end
-- ==== Proof.HostStretches.lean ====
/-
  The host operations between the pallas_calls, one stretch at a time, read at the buffers later steps use. Each stretch
  is taken from ARBITRARY buffer contents `Wb`: what it writes is a few operations of what it finds, and every buffer
  it does not write is left as found. The operations are the reference's own (the same gathers, scatter-adds and index
  arithmetic in the same order), so where the contents a stretch finds are the reference's stage values, what it writes
  is the reference's next stage value, by unfolding the stage's definition.
-/
import proofs.«408010_j10986526343434_3_alg».proof.Proof.Gen.KernelIdeal.Launch
import proofs.«408010_j10986526343434_3_alg».proof.Proof.RefRead
import proofs.«408010_j10986526343434_3_alg».proof.Proof.LibUnitAxis
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStretches

open Cert.KernelIdeal Cert.KernelIdeal.Gen Cert.ReferenceIdeal.ReadP

variable {F : FTy → Type} [FloatOps F]
variable (Wb : Valuation τ sig (Elt F))

/-- A buffer the stretch does not write keeps its contents. -/
macro "kept " l:ident : tactic => `(tactic| (dsimp only [$l:ident]; after_results))

/-! ## The first stretch: sources, destinations and the degree -/

set_option maxHeartbeats 1000000 in
/-- The source list: the edges' first row followed by the self-loops. -/
theorem src : after hostOps0 Wb (Proc.devRef .tc main_v3) = val_main_v3 (F := F) (Wb (Proc.devRef .tc main_arg1)) := by
  dsimp only [hostOps0]; after_results; rfl
set_option maxHeartbeats 1000000 in
/-- The destination list: the edges' second row followed by the self-loops. -/
theorem dst : after hostOps0 Wb (Proc.devRef .tc main_v6) = val_main_v6 (F := F) (Wb (Proc.devRef .tc main_arg1)) := by
  dsimp only [hostOps0]; after_results; rfl
set_option maxHeartbeats 1000000 in
/-- Where the degree is positive. -/
theorem deg_pos : after hostOps0 Wb (Proc.devRef .tc main_v12) = val_main_v12 (F := F) (Wb (Proc.devRef .tc main_arg1)) := by
  dsimp only [hostOps0]; after_results; rfl
set_option maxHeartbeats 1000000 in
/-- The degree's inverse square root. -/
theorem deg_rsqrt : after hostOps0 Wb (Proc.devRef .tc main_v13) = val_main_v13 (F := F) (Wb (Proc.devRef .tc main_arg1)) := by
  dsimp only [hostOps0]; after_results; rfl
set_option maxHeartbeats 1000000 in
theorem zero_lit : after hostOps0 Wb (Proc.devRef .tc main_cst_2) = val_main_cst_2 (F := F) := by
  dsimp only [hostOps0]; after_results; rfl
set_option maxHeartbeats 1000000 in
theorem s0_arg0 : after hostOps0 Wb (Proc.devRef .tc main_arg0) = Wb (Proc.devRef .tc main_arg0) := by kept hostOps0
set_option maxHeartbeats 1000000 in
theorem s0_arg2 : after hostOps0 Wb (Proc.devRef .tc main_arg2) = Wb (Proc.devRef .tc main_arg2) := by kept hostOps0
set_option maxHeartbeats 1000000 in
theorem s0_arg3 : after hostOps0 Wb (Proc.devRef .tc main_arg3) = Wb (Proc.devRef .tc main_arg3) := by kept hostOps0
set_option maxHeartbeats 1000000 in
theorem s0_arg4 : after hostOps0 Wb (Proc.devRef .tc main_arg4) = Wb (Proc.devRef .tc main_arg4) := by kept hostOps0
set_option maxHeartbeats 1000000 in
theorem s0_arg5 : after hostOps0 Wb (Proc.devRef .tc main_arg5) = Wb (Proc.devRef .tc main_arg5) := by kept hostOps0

/-! ## The second stretch: the inverse square root where the degree is positive, zero elsewhere -/

theorem dinv (x1) (h12 : Wb (Proc.devRef .tc main_v12) = val_main_v12 (F := F) x1)
    (h13 : Wb (Proc.devRef .tc main_v13) = val_main_v13 (F := F) x1) (hz : Wb (Proc.devRef .tc main_cst_2) = val_main_cst_2 (F := F)) :
    after hostOps0_1 Wb (Proc.devRef .tc main_v14) = val_main_v14 (F := F) x1 := by
  dsimp only [hostOps0_1]; after_results; rw [h12, h13, hz]; rfl
theorem s1_v3 : after hostOps0_1 Wb (Proc.devRef .tc main_v3) = Wb (Proc.devRef .tc main_v3) := by kept hostOps0_1
theorem s1_v6 : after hostOps0_1 Wb (Proc.devRef .tc main_v6) = Wb (Proc.devRef .tc main_v6) := by kept hostOps0_1
theorem s1_arg0 : after hostOps0_1 Wb (Proc.devRef .tc main_arg0) = Wb (Proc.devRef .tc main_arg0) := by kept hostOps0_1
theorem s1_arg2 : after hostOps0_1 Wb (Proc.devRef .tc main_arg2) = Wb (Proc.devRef .tc main_arg2) := by kept hostOps0_1
theorem s1_arg3 : after hostOps0_1 Wb (Proc.devRef .tc main_arg3) = Wb (Proc.devRef .tc main_arg3) := by kept hostOps0_1
theorem s1_arg4 : after hostOps0_1 Wb (Proc.devRef .tc main_arg4) = Wb (Proc.devRef .tc main_arg4) := by kept hostOps0_1
theorem s1_arg5 : after hostOps0_1 Wb (Proc.devRef .tc main_arg5) = Wb (Proc.devRef .tc main_arg5) := by kept hostOps0_1

/-! ## The third stretch: each edge's norm, as a column, and the two biases as rows -/

set_option maxHeartbeats 2000000 in
/-- The norm column: the kernel reshapes the norm list to one column, the reference broadcasts it into one. -/
theorem norm_col (x1) (h3 : Wb (Proc.devRef .tc main_v3) = val_main_v3 (F := F) x1)
    (h6 : Wb (Proc.devRef .tc main_v6) = val_main_v6 (F := F) x1) (h14 : Wb (Proc.devRef .tc main_v14) = val_main_v14 (F := F) x1) :
    after hostOps0_2 Wb (Proc.devRef .tc main_v30) = val_main_v38 (F := F) x1 := by
  dsimp only [hostOps0_2]; after_results; rw [h3, h6, h14]
  exact Cert.Lib.UnitAxis.reshape_col_eq_broadcastInDim _ _ _
set_option maxHeartbeats 2000000 in
/-- The first bias as a row: the kernel reshapes the vector to one row, the reference broadcasts it into one. -/
theorem bias1_row : after hostOps0_2 Wb (Proc.devRef .tc main_v31) = val_main_v44 (F := F) (Wb (Proc.devRef .tc main_arg3)) := by
  dsimp only [hostOps0_2]; after_results
  exact Cert.Lib.UnitAxis.reshape_row_eq_broadcastInDim _ _ _
set_option maxHeartbeats 2000000 in
/-- The second bias as a row. -/
theorem bias3_row : after hostOps0_2 Wb (Proc.devRef .tc main_v32) = val_main_v62 (F := F) (Wb (Proc.devRef .tc main_arg5)) := by
  dsimp only [hostOps0_2]; after_results
  exact Cert.Lib.UnitAxis.reshape_row_eq_broadcastInDim _ _ _
set_option maxHeartbeats 2000000 in
theorem s2_v3 : after hostOps0_2 Wb (Proc.devRef .tc main_v3) = Wb (Proc.devRef .tc main_v3) := by kept hostOps0_2
set_option maxHeartbeats 2000000 in
theorem s2_v6 : after hostOps0_2 Wb (Proc.devRef .tc main_v6) = Wb (Proc.devRef .tc main_v6) := by kept hostOps0_2
set_option maxHeartbeats 2000000 in
theorem s2_arg0 : after hostOps0_2 Wb (Proc.devRef .tc main_arg0) = Wb (Proc.devRef .tc main_arg0) := by kept hostOps0_2
set_option maxHeartbeats 2000000 in
theorem s2_arg2 : after hostOps0_2 Wb (Proc.devRef .tc main_arg2) = Wb (Proc.devRef .tc main_arg2) := by kept hostOps0_2
set_option maxHeartbeats 2000000 in
theorem s2_arg4 : after hostOps0_2 Wb (Proc.devRef .tc main_arg4) = Wb (Proc.devRef .tc main_arg4) := by kept hostOps0_2

/-! ## The first layer's gather of the transformed features along the sources -/

theorem gathered1 (x0 x1 x2) (h3 : Wb (Proc.devRef .tc main_v3) = val_main_v3 (F := F) x1)
    (h33 : Wb (Proc.devRef .tc main_v33) = val_main_v30 (F := F) x0 x2) :
    after hostOps1 Wb (Proc.devRef .tc main_v40) = val_main_v37 (F := F) x0 x1 x2 := by
  dsimp only [hostOps1]; after_results; rw [h3, h33]; rfl
theorem s3_v3 : after hostOps1 Wb (Proc.devRef .tc main_v3) = Wb (Proc.devRef .tc main_v3) := by kept hostOps1
theorem s3_v6 : after hostOps1 Wb (Proc.devRef .tc main_v6) = Wb (Proc.devRef .tc main_v6) := by kept hostOps1
theorem s3_v30 : after hostOps1 Wb (Proc.devRef .tc main_v30) = Wb (Proc.devRef .tc main_v30) := by kept hostOps1
theorem s3_v31 : after hostOps1 Wb (Proc.devRef .tc main_v31) = Wb (Proc.devRef .tc main_v31) := by kept hostOps1
theorem s3_v32 : after hostOps1 Wb (Proc.devRef .tc main_v32) = Wb (Proc.devRef .tc main_v32) := by kept hostOps1
theorem s3_arg4 : after hostOps1 Wb (Proc.devRef .tc main_arg4) = Wb (Proc.devRef .tc main_arg4) := by kept hostOps1

/-! ## The first layer's scatter-add of the messages onto the destinations -/

theorem aggregated1 (x0 x1 x2) (h6 : Wb (Proc.devRef .tc main_v6) = val_main_v6 (F := F) x1)
    (h41 : Wb (Proc.devRef .tc main_v41) = val_main_v40 (F := F) x0 x1 x2) :
    after hostOps2 Wb (Proc.devRef .tc main_v44) = val_main_v43 (F := F) x0 x1 x2 := by
  dsimp only [hostOps2]; after_results; rw [h6, h41]; rfl
theorem s4_v3 : after hostOps2 Wb (Proc.devRef .tc main_v3) = Wb (Proc.devRef .tc main_v3) := by kept hostOps2
theorem s4_v6 : after hostOps2 Wb (Proc.devRef .tc main_v6) = Wb (Proc.devRef .tc main_v6) := by kept hostOps2
theorem s4_v30 : after hostOps2 Wb (Proc.devRef .tc main_v30) = Wb (Proc.devRef .tc main_v30) := by kept hostOps2
theorem s4_v31 : after hostOps2 Wb (Proc.devRef .tc main_v31) = Wb (Proc.devRef .tc main_v31) := by kept hostOps2
theorem s4_v32 : after hostOps2 Wb (Proc.devRef .tc main_v32) = Wb (Proc.devRef .tc main_v32) := by kept hostOps2
theorem s4_arg4 : after hostOps2 Wb (Proc.devRef .tc main_arg4) = Wb (Proc.devRef .tc main_arg4) := by kept hostOps2

/-! ## The second layer's gather -/

theorem gathered2 (x0 x1 x2 x3 x4) (h3 : Wb (Proc.devRef .tc main_v3) = val_main_v3 (F := F) x1)
    (h46 : Wb (Proc.devRef .tc main_v46) = val_main_v48 (F := F) x0 x1 x2 x3 x4) :
    after hostOps4 Wb (Proc.devRef .tc main_v53) = val_main_v55 (F := F) x0 x1 x2 x3 x4 := by
  dsimp only [hostOps4]; after_results; rw [h3, h46]; rfl
theorem s5_v6 : after hostOps4 Wb (Proc.devRef .tc main_v6) = Wb (Proc.devRef .tc main_v6) := by kept hostOps4
theorem s5_v30 : after hostOps4 Wb (Proc.devRef .tc main_v30) = Wb (Proc.devRef .tc main_v30) := by kept hostOps4
theorem s5_v32 : after hostOps4 Wb (Proc.devRef .tc main_v32) = Wb (Proc.devRef .tc main_v32) := by kept hostOps4

/-! ## The second layer's scatter-add -/

theorem aggregated2 (x0 x1 x2 x3 x4) (h6 : Wb (Proc.devRef .tc main_v6) = val_main_v6 (F := F) x1)
    (h54 : Wb (Proc.devRef .tc main_v54) = val_main_v58 (F := F) x0 x1 x2 x3 x4) :
    after hostOps5 Wb (Proc.devRef .tc main_v57) = val_main_v61 (F := F) x0 x1 x2 x3 x4 := by
  dsimp only [hostOps5]; after_results; rw [h6, h54]; rfl
theorem s6_v32 : after hostOps5 Wb (Proc.devRef .tc main_v32) = Wb (Proc.devRef .tc main_v32) := by kept hostOps5

end Cert.KernelIdeal.HostStretches

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.EdgeScale64.lean ====
/-
  The per-edge normalisation of one layer's messages: the pallas_call takes, at each of its 130 grid points, a band of
  10000 gathered rows and the band's 10000 norm entries (a column), multiplies every row by its own norm entry, and
  writes the band back. The bands tile the 1300000 edges, so the result array is the gathered array with each row
  scaled by that row's entry of the norm column, whatever the two arrays the region finds hold.
-/
import proofs.«408010_j10986526343434_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeScale64

open Cert.KernelIdeal Cert.KernelIdeal.Gen

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Every row of a matrix multiplied by that row's entry of a one-column matrix. -/
def rowsScaled {E : Nat} (g : (⟨2, ![E, 64]⟩ : Shape).Idx → Elt F .f32) (n : (⟨2, ![E, 1]⟩ : Shape).Idx → Elt F .f32) :
    (⟨2, ![E, 64]⟩ : Shape).Idx → Elt F .f32 :=
  fun i => FloatOps.mulf (g i) (n (ix2 ⟨(i 0).val, idx2_lt0 i⟩ (0 : Fin 1)))

/-- The body's one stored value, entry by entry: the gathered block's entry times its row's norm entry. -/
theorem body_scaled (g : Vec F S10000x64 .f32) (n : Vec F S10000x1 .f32) : k1_pay1 g n = rowsScaled g n := by
  funext j
  unfold k1_pay1
  simp only [shapeCast_self]
  show FloatOps.mulf (g j) (broadcastTo S10000x64 n broadcasts_S10000x1_S10000x64 j) = _
  rw [broadcastTo_apply n broadcasts_S10000x1_S10000x64 j (ix2 ⟨(j 0).val, idx2_lt0 j⟩ (0 : Fin 1)) (fun a => by
    match a with
    | ⟨0, _⟩ => show (j 0).val = if (10000 : Nat) = 1 then 0 else (j 0).val; rw [if_neg (by decide)]
    | ⟨1, _⟩ => show 0 = if (1 : Nat) = 1 then 0 else _; rw [if_pos rfl])]
  rfl

/-- The three windows' block indices over the grid: all three move down the rows with the point's number. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is band t of the row-scaled array. -/
theorem written_block (c : Dev nD) (t : Fin cfg1.N) :
    (dat1 V c).flushed 2 t = ((cfg1.win 2).blk t).view.read (Elt F)
      (rowsScaled (V c (Pipeline.arrRef spec1 0)) (V c (Pipeline.arrRef spec1 1))) := by
  show (cfg1.win 2).cut (grid1.coords t) ((dat1 V c).after 2 t) = _
  rw [after1_2]
  unfold out1_2
  rw [View.canon_unit_zero zeros2]
  simp only [View.ld_unit_zero (S := S10000x64) zeros2, View.ld_unit_zero (S := S10000x1) zeros2]
  rw [body_scaled]
  obtain ⟨e0, e1, e2, e3, e4, e5⟩ := block_indices t
  funext j
  show FloatOps.mulf (V c (Pipeline.arrRef spec1 0) (((cfg1.win 0).blk t).view.emb j))
        (V c (Pipeline.arrRef spec1 1) (((cfg1.win 1).blk t).view.emb (ix2 ⟨(j 0).val, idx2_lt0 j⟩ (0 : Fin 1))))
      = FloatOps.mulf (V c (Pipeline.arrRef spec1 0) (((cfg1.win 2).blk t).view.emb j))
        (V c (Pipeline.arrRef spec1 1) (ix2 ⟨((((cfg1.win 2).blk t).view.emb j) 0).val, idx2_lt0 _⟩ (0 : Fin 1)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 ⟨(j 0).val, idx2_lt0 j⟩ (0 : Fin 1))
      = ix2 ⟨((((cfg1.win 2).blk t).view.emb j) 0).val, idx2_lt0 _⟩ (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An index of the result array lies in point t's block exactly when its row lies in band t. -/
theorem mem_block (t : Fin cfg1.N) (i : S1300000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v41).slice (win1_2.rect t)).set ↔ _
  rw [View.set_slice_whole, Rect.mem_set_unit]
  exact Iff.rfl

/-- THE REGION'S VALUE: the result array ends holding the row-scaled array of the two arrays the region finds. -/
theorem scaled_rows (c : Dev nD) :
    (dat1 V c).arrAt 2 cfg1.N = rowsScaled (V c (Pipeline.arrRef spec1 0)) (V c (Pipeline.arrRef spec1 1)) :=
  (dat1 V c).arrAt_eq_of_cover 2 _ (fun t _ => written_block V c t) fun i => by
    have hi0 : (i 0).val < 1300000 := (i 0).isLt
    have hi1 : (i 1).val < 64 := (i 1).isLt
    have hN : grid1.N = 130 := N_1
    let t : Fin cfg1.N := ⟨(i 0).val / 10000, by show (i 0).val / 10000 < grid1.N; omega⟩
    obtain ⟨e0, e1, e2, e3, e4, e5⟩ := block_indices t
    refine ⟨t, flush1_2 t, ?_⟩
    rw [mem_block]
    intro a
    match a with
    | ⟨0, _⟩ => show win1_2.index t (0 : Fin 2) * 10000 ≤ (i 0).val ∧ (i 0).val < win1_2.index t (0 : Fin 2) * 10000 + 10000
                rw [e4]; show (i 0).val / 10000 * 10000 ≤ (i 0).val ∧ (i 0).val < (i 0).val / 10000 * 10000 + 10000; omega
    | ⟨1, _⟩ => show win1_2.index t (1 : Fin 2) * 64 ≤ (i 1).val ∧ (i 1).val < win1_2.index t (1 : Fin 2) * 64 + 64
                rw [e5]; omega

end Cert.KernelIdeal.EdgeScale64

end
-- ==== Proof.EdgeScale40.lean ====
/-
  The per-edge normalisation of the second layer's messages: the pallas_call takes, at each of its 130 grid points, a band of
  10000 gathered rows and the band's 10000 norm entries (a column), multiplies every row by its own norm entry, and
  writes the band back. The bands tile the 1300000 edges, so the result array is the gathered array with each row
  scaled by that row's entry of the norm column, whatever the two arrays the region finds hold.
-/
import proofs.«408010_j10986526343434_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeScale40

open Cert.KernelIdeal Cert.KernelIdeal.Gen

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Every row of a matrix multiplied by that row's entry of a one-column matrix. -/
def rowsScaled {E : Nat} (g : (⟨2, ![E, 40]⟩ : Shape).Idx → Elt F .f32) (n : (⟨2, ![E, 1]⟩ : Shape).Idx → Elt F .f32) :
    (⟨2, ![E, 40]⟩ : Shape).Idx → Elt F .f32 :=
  fun i => FloatOps.mulf (g i) (n (ix2 ⟨(i 0).val, idx2_lt0 i⟩ (0 : Fin 1)))

/-- The body's one stored value, entry by entry: the gathered block's entry times its row's norm entry. -/
theorem body_scaled (g : Vec F S10000x40 .f32) (n : Vec F S10000x1 .f32) : k4_pay1 g n = rowsScaled g n := by
  funext j
  unfold k4_pay1
  simp only [shapeCast_self]
  show FloatOps.mulf (g j) (broadcastTo S10000x40 n broadcasts_S10000x1_S10000x40 j) = _
  rw [broadcastTo_apply n broadcasts_S10000x1_S10000x40 j (ix2 ⟨(j 0).val, idx2_lt0 j⟩ (0 : Fin 1)) (fun a => by
    match a with
    | ⟨0, _⟩ => show (j 0).val = if (10000 : Nat) = 1 then 0 else (j 0).val; rw [if_neg (by decide)]
    | ⟨1, _⟩ => show 0 = if (1 : Nat) = 1 then 0 else _; rw [if_pos rfl])]
  rfl

/-- The three windows' block indices over the grid: all three move down the rows with the point's number. -/
theorem block_indices : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is band t of the row-scaled array. -/
theorem written_block (c : Dev nD) (t : Fin cfg4.N) :
    (dat4 V c).flushed 2 t = ((cfg4.win 2).blk t).view.read (Elt F)
      (rowsScaled (V c (Pipeline.arrRef spec4 0)) (V c (Pipeline.arrRef spec4 1))) := by
  show (cfg4.win 2).cut (grid4.coords t) ((dat4 V c).after 2 t) = _
  rw [after4_2]
  unfold out4_2
  rw [View.canon_unit_zero zeros2]
  simp only [View.ld_unit_zero (S := S10000x40) zeros2, View.ld_unit_zero (S := S10000x1) zeros2]
  rw [body_scaled]
  obtain ⟨e0, e1, e2, e3, e4, e5⟩ := block_indices t
  funext j
  show FloatOps.mulf (V c (Pipeline.arrRef spec4 0) (((cfg4.win 0).blk t).view.emb j))
        (V c (Pipeline.arrRef spec4 1) (((cfg4.win 1).blk t).view.emb (ix2 ⟨(j 0).val, idx2_lt0 j⟩ (0 : Fin 1))))
      = FloatOps.mulf (V c (Pipeline.arrRef spec4 0) (((cfg4.win 2).blk t).view.emb j))
        (V c (Pipeline.arrRef spec4 1) (ix2 ⟨((((cfg4.win 2).blk t).view.emb j) 0).val, idx2_lt0 _⟩ (0 : Fin 1)))
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 40 + 1 * (j 1).val = win4_2.index t (1 : Fin 2) * 40 + 1 * (j 1).val; omega
  have h1 : ((cfg4.win 1).blk t).view.emb (ix2 ⟨(j 0).val, idx2_lt0 j⟩ (0 : Fin 1))
      = ix2 ⟨((((cfg4.win 2).blk t).view.emb j) 0).val, idx2_lt0 _⟩ (0 : Fin 1) := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  rw [h0, h1]

/-- An index of the result array lies in point t's block exactly when its row lies in band t. -/
theorem mem_block (t : Fin cfg4.N) (i : S1300000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v54).slice (win4_2.rect t)).set ↔ _
  rw [View.set_slice_whole, Rect.mem_set_unit]
  exact Iff.rfl

/-- THE REGION'S VALUE: the result array ends holding the row-scaled array of the two arrays the region finds. -/
theorem scaled_rows (c : Dev nD) :
    (dat4 V c).arrAt 2 cfg4.N = rowsScaled (V c (Pipeline.arrRef spec4 0)) (V c (Pipeline.arrRef spec4 1)) :=
  (dat4 V c).arrAt_eq_of_cover 2 _ (fun t _ => written_block V c t) fun i => by
    have hi0 : (i 0).val < 1300000 := (i 0).isLt
    have hi1 : (i 1).val < 40 := (i 1).isLt
    have hN : grid4.N = 130 := N_4
    let t : Fin cfg4.N := ⟨(i 0).val / 10000, by show (i 0).val / 10000 < grid4.N; omega⟩
    obtain ⟨e0, e1, e2, e3, e4, e5⟩ := block_indices t
    refine ⟨t, flush4_2 t, ?_⟩
    rw [mem_block]
    intro a
    match a with
    | ⟨0, _⟩ => show win4_2.index t (0 : Fin 2) * 10000 ≤ (i 0).val ∧ (i 0).val < win4_2.index t (0 : Fin 2) * 10000 + 10000
                rw [e4]; show (i 0).val / 10000 * 10000 ≤ (i 0).val ∧ (i 0).val < (i 0).val / 10000 * 10000 + 10000; omega
    | ⟨1, _⟩ => show win4_2.index t (1 : Fin 2) * 40 ≤ (i 1).val ∧ (i 1).val < win4_2.index t (1 : Fin 2) * 40 + 40
                rw [e5]; omega

end Cert.KernelIdeal.EdgeScale40

end
-- ==== Proof.BiasRelu64.lean ====
/-
  The bias epilogue of one layer: at each of its 10 grid points the pallas_call takes a band of 10000 rows of the
  aggregated messages and the one-row bias, adds the bias row to every row and takes the maximum with zero, and writes
  the band back. The bands tile the 100000 nodes, so the result array is the aggregated array with the bias row added to
  every row, clamped below at zero, whatever the two arrays the region finds hold.
-/
import proofs.«408010_j10986526343434_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRelu64

open Cert.KernelIdeal Cert.KernelIdeal.Gen

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- A one-row matrix added to every row of a matrix, and the maximum of each entry with the float zero. -/
def rowAdded {M : Nat} (a : (⟨2, ![M, 64]⟩ : Shape).Idx → Elt F .f32) (b : (⟨2, ![1, 64]⟩ : Shape).Idx → Elt F .f32) :
    (⟨2, ![M, 64]⟩ : Shape).Idx → Elt F .f32 :=
  fun i => FloatOps.maximumf (FloatOps.addf (a i) (b (ix2 (0 : Fin 1) ⟨(i 1).val, idx2_lt1 i⟩))) (FloatOps.ofBits .f32 0x00000000#32)

/-- The body's one stored value, entry by entry. -/
theorem body_added (a : Vec F S10000x64 .f32) (b : Vec F S1x64 .f32) : k2_pay1 a b = rowAdded a b := by
  funext j
  unfold k2_pay1
  simp only [shapeCast_self]
  show FloatOps.maximumf (FloatOps.addf (a j) (broadcastTo S10000x64 b broadcasts_S1x64_S10000x64 j)) _ = _
  rw [broadcastTo_apply b broadcasts_S1x64_S10000x64 j (ix2 (0 : Fin 1) ⟨(j 1).val, idx2_lt1 j⟩) (fun a => by
    match a with
    | ⟨0, _⟩ => show 0 = if (1 : Nat) = 1 then 0 else _; rw [if_pos rfl]
    | ⟨1, _⟩ => show (j 1).val = if (64 : Nat) = 1 then 0 else (j 1).val; rw [if_neg (by decide)])]
  rfl

/-- The three windows' block indices over the grid: the aggregated array's and the result's row band is the point's
    number, and the bias is always its one block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is band t of the array with the bias row added. -/
theorem written_block (c : Dev nD) (t : Fin cfg2.N) :
    (dat2 V c).flushed 2 t = ((cfg2.win 2).blk t).view.read (Elt F)
      (rowAdded (V c (Pipeline.arrRef spec2 0)) (V c (Pipeline.arrRef spec2 1))) := by
  show (cfg2.win 2).cut (grid2.coords t) ((dat2 V c).after 2 t) = _
  rw [after2_2]
  unfold out2_2
  rw [View.canon_unit_zero zeros2]
  simp only [View.ld_unit_zero (S := S10000x64) zeros2, View.ld_unit_zero (S := S1x64) zeros2]
  rw [body_added]
  obtain ⟨e0, e1, e2, e3, e4, e5⟩ := block_indices t
  funext j
  show FloatOps.maximumf (FloatOps.addf (V c (Pipeline.arrRef spec2 0) (((cfg2.win 0).blk t).view.emb j))
        (V c (Pipeline.arrRef spec2 1) (((cfg2.win 1).blk t).view.emb (ix2 (0 : Fin 1) ⟨(j 1).val, idx2_lt1 j⟩)))) (FloatOps.ofBits .f32 0x00000000#32)
      = FloatOps.maximumf (FloatOps.addf (V c (Pipeline.arrRef spec2 0) (((cfg2.win 2).blk t).view.emb j))
        (V c (Pipeline.arrRef spec2 1) (ix2 (0 : Fin 1) ⟨((((cfg2.win 2).blk t).view.emb j) 1).val, idx2_lt1 _⟩))) (FloatOps.ofBits .f32 0x00000000#32)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) ⟨(j 1).val, idx2_lt1 j⟩)
      = ix2 (0 : Fin 1) ⟨((((cfg2.win 2).blk t).view.emb j) 1).val, idx2_lt1 _⟩ := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  rw [h0, h1]

/-- An index of the result array lies in point t's block exactly when its row lies in band t. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- THE REGION'S VALUE: the result array ends holding the aggregated array with the bias row added to every row, clamped below at zero. -/
theorem row_added (c : Dev nD) :
    (dat2 V c).arrAt 2 cfg2.N = rowAdded (V c (Pipeline.arrRef spec2 0)) (V c (Pipeline.arrRef spec2 1)) :=
  (dat2 V c).arrAt_eq_of_cover 2 _ (fun t _ => written_block V c t) fun i => by
    have hi0 : (i 0).val < 100000 := (i 0).isLt
    have hi1 : (i 1).val < 64 := (i 1).isLt
    have hN : grid2.N = 10 := N_2
    let t : Fin cfg2.N := ⟨(i 0).val / 10000, by show (i 0).val / 10000 < grid2.N; omega⟩
    obtain ⟨e0, e1, e2, e3, e4, e5⟩ := block_indices t
    refine ⟨t, flush2_2 t, ?_⟩
    rw [mem_block]
    intro a
    match a with
    | ⟨0, _⟩ => show win2_2.index t (0 : Fin 2) * 10000 ≤ (i 0).val ∧ (i 0).val < win2_2.index t (0 : Fin 2) * 10000 + 10000
                rw [e4]; show (i 0).val / 10000 * 10000 ≤ (i 0).val ∧ (i 0).val < (i 0).val / 10000 * 10000 + 10000; omega
    | ⟨1, _⟩ => show win2_2.index t (1 : Fin 2) * 64 ≤ (i 1).val ∧ (i 1).val < win2_2.index t (1 : Fin 2) * 64 + 64
                rw [e5]; omega

end Cert.KernelIdeal.BiasRelu64

end
-- ==== Proof.Bias40.lean ====
/-
  The bias epilogue of one layer: at each of its 10 grid points the pallas_call takes a band of 10000 rows of the
  aggregated messages and the one-row bias, adds the bias row to every row, and writes
  the band back. The bands tile the 100000 nodes, so the result array is the aggregated array with the bias row added to
  every row, whatever the two arrays the region finds hold.
-/
import proofs.«408010_j10986526343434_3_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias40

open Cert.KernelIdeal Cert.KernelIdeal.Gen

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- A one-row matrix added to every row of a matrix. -/
def rowAdded {M : Nat} (a : (⟨2, ![M, 40]⟩ : Shape).Idx → Elt F .f32) (b : (⟨2, ![1, 40]⟩ : Shape).Idx → Elt F .f32) :
    (⟨2, ![M, 40]⟩ : Shape).Idx → Elt F .f32 :=
  fun i => FloatOps.addf (a i) (b (ix2 (0 : Fin 1) ⟨(i 1).val, idx2_lt1 i⟩))

/-- The body's one stored value, entry by entry. -/
theorem body_added (a : Vec F S10000x40 .f32) (b : Vec F S1x40 .f32) : k5_pay1 a b = rowAdded a b := by
  funext j
  unfold k5_pay1
  simp only [shapeCast_self]
  show FloatOps.addf (a j) (broadcastTo S10000x40 b broadcasts_S1x40_S10000x40 j) = _
  rw [broadcastTo_apply b broadcasts_S1x40_S10000x40 j (ix2 (0 : Fin 1) ⟨(j 1).val, idx2_lt1 j⟩) (fun a => by
    match a with
    | ⟨0, _⟩ => show 0 = if (1 : Nat) = 1 then 0 else _; rw [if_pos rfl]
    | ⟨1, _⟩ => show (j 1).val = if (40 : Nat) = 1 then 0 else (j 1).val; rw [if_neg (by decide)])]
  rfl

/-- The three windows' block indices over the grid: the aggregated array's and the result's row band is the point's
    number, and the bias is always its one block. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is band t of the array with the bias row added. -/
theorem written_block (c : Dev nD) (t : Fin cfg5.N) :
    (dat5 V c).flushed 2 t = ((cfg5.win 2).blk t).view.read (Elt F)
      (rowAdded (V c (Pipeline.arrRef spec5 0)) (V c (Pipeline.arrRef spec5 1))) := by
  show (cfg5.win 2).cut (grid5.coords t) ((dat5 V c).after 2 t) = _
  rw [after5_2]
  unfold out5_2
  rw [View.canon_unit_zero zeros2]
  simp only [View.ld_unit_zero (S := S10000x40) zeros2, View.ld_unit_zero (S := S1x40) zeros2]
  rw [body_added]
  obtain ⟨e0, e1, e2, e3, e4, e5⟩ := block_indices t
  funext j
  show FloatOps.addf (V c (Pipeline.arrRef spec5 0) (((cfg5.win 0).blk t).view.emb j))
        (V c (Pipeline.arrRef spec5 1) (((cfg5.win 1).blk t).view.emb (ix2 (0 : Fin 1) ⟨(j 1).val, idx2_lt1 j⟩)))
      = FloatOps.addf (V c (Pipeline.arrRef spec5 0) (((cfg5.win 2).blk t).view.emb j))
        (V c (Pipeline.arrRef spec5 1) (ix2 (0 : Fin 1) ⟨((((cfg5.win 2).blk t).view.emb j) 1).val, idx2_lt1 _⟩))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 40 + 1 * (j 1).val = win5_2.index t (1 : Fin 2) * 40 + 1 * (j 1).val; omega
  have h1 : ((cfg5.win 1).blk t).view.emb (ix2 (0 : Fin 1) ⟨(j 1).val, idx2_lt1 j⟩)
      = ix2 (0 : Fin 1) ⟨((((cfg5.win 2).blk t).view.emb j) 1).val, idx2_lt1 _⟩ := by
    funext a; apply Fin.ext
    match a with
    | ⟨0, _⟩ => show win5_1.index t (0 : Fin 2) * 1 + 1 * 0 = 0; omega
    | ⟨1, _⟩ => show win5_1.index t (1 : Fin 2) * 40 + 1 * (j 1).val = win5_2.index t (1 : Fin 2) * 40 + 1 * (j 1).val; omega
  rw [h0, h1]

/-- An index of the result array lies in point t's block exactly when its row lies in band t. -/
theorem mem_block (t : Fin cfg5.N) (i : S100000x40.Idx) :
    i ∈ ((cfg5.win 2).blk t).view.set ↔ ∀ a : Fin 2, win5_2.index t a * S10000x40.size a ≤ (i a).val ∧ (i a).val < win5_2.index t a * S10000x40.size a + S10000x40.size a := by
  show i ∈ ((View.whole main_v58).slice (win5_2.rect t)).set ↔ _
  rw [View.set_slice_whole, Rect.mem_set_unit]
  exact Iff.rfl

/-- THE REGION'S VALUE: the result array ends holding the aggregated array with the bias row added to every row. -/
theorem row_added (c : Dev nD) :
    (dat5 V c).arrAt 2 cfg5.N = rowAdded (V c (Pipeline.arrRef spec5 0)) (V c (Pipeline.arrRef spec5 1)) :=
  (dat5 V c).arrAt_eq_of_cover 2 _ (fun t _ => written_block V c t) fun i => by
    have hi0 : (i 0).val < 100000 := (i 0).isLt
    have hi1 : (i 1).val < 40 := (i 1).isLt
    have hN : grid5.N = 10 := N_5
    let t : Fin cfg5.N := ⟨(i 0).val / 10000, by show (i 0).val / 10000 < grid5.N; omega⟩
    obtain ⟨e0, e1, e2, e3, e4, e5⟩ := block_indices t
    refine ⟨t, flush5_2 t, ?_⟩
    rw [mem_block]
    intro a
    match a with
    | ⟨0, _⟩ => show win5_2.index t (0 : Fin 2) * 10000 ≤ (i 0).val ∧ (i 0).val < win5_2.index t (0 : Fin 2) * 10000 + 10000
                rw [e4]; show (i 0).val / 10000 * 10000 ≤ (i 0).val ∧ (i 0).val < (i 0).val / 10000 * 10000 + 10000; omega
    | ⟨1, _⟩ => show win5_2.index t (1 : Fin 2) * 40 ≤ (i 1).val ∧ (i 1).val < win5_2.index t (1 : Fin 2) * 40 + 40
                rw [e5]; omega

end Cert.KernelIdeal.Bias40

end
-- ==== Proof.RefStages.lean ====
/-
  The reference's stages that correspond to the six pallas_calls, in the form the calls' values take: the two
  dot_generals are row-by-column products; a product with the norm column broadcast across the features is each row
  scaled by its own norm entry; adding the bias broadcast down the rows is adding the bias row to every row, and relu is
  the maximum with the float zero.
-/
import proofs.«408010_j10986526343434_3_alg».proof.Proof.RefRead
import proofs.«408010_j10986526343434_3_alg».proof.Proof.LibMatProduct
import proofs.«408010_j10986526343434_3_alg».proof.Proof.EdgeScale64
import proofs.«408010_j10986526343434_3_alg».proof.Proof.EdgeScale40
import proofs.«408010_j10986526343434_3_alg».proof.Proof.BiasRelu64
import proofs.«408010_j10986526343434_3_alg».proof.Proof.Bias40

noncomputable section

open Idealize.ShloMosaic Idealize.ShloMosaic.ValueIdx

namespace Cert.ReferenceIdeal.Stages

open Cert.ReferenceIdeal.ReadP Cert.Lib.MatProduct

variable {F : FTy → Type} [FloatOps F]

/-- x · W1: the reference's first dot_general is the row-by-column product. -/
theorem product1 (x0 : (⟨2, ![100000, 64]⟩ : Shape).Idx → EReal) (x2 : (⟨2, ![64, 64]⟩ : Shape).Idx → EReal) :
    matProd x0 x2 = val_main_v30 (F := Ideal) x0 x2 :=
  (dotGeneral_plain_eq (M := 100000) (K := 64) (N := 64) (φ₁ := .f32) (φ₂ := .f32) none x0 x2).symm

/-- h · W3: the reference's second dot_general is the row-by-column product of the hidden features with W3. -/
theorem product2 (x0 x1 x2 x3) (x4 : (⟨2, ![64, 40]⟩ : Shape).Idx → EReal) :
    matProd (val_main_v47 (F := Ideal) x0 x1 x2 x3) x4 = val_main_v48 (F := Ideal) x0 x1 x2 x3 x4 :=
  (dotGeneral_plain_eq (M := 100000) (K := 64) (N := 40) (φ₁ := .f32) (φ₂ := .f32) none (val_main_v47 (F := Ideal) x0 x1 x2 x3) x4).symm

/-- The first layer's messages: each gathered row times its edge's norm. -/
theorem scaled1 (x0 x1 x2) :
    Cert.KernelIdeal.EdgeScale64.rowsScaled (E := 1300000) (val_main_v37 (F := F) x0 x1 x2) (val_main_v38 (F := F) x1)
      = val_main_v40 (F := F) x0 x1 x2 := by
  funext i
  rw [val_main_v40_apply, val_main_v39_apply]
  have e : idx_main_v39 i = ix2 ⟨(i 0).val, idx2_lt0 i⟩ (0 : Fin 1) :=
    funext fun a => Fin.ext (by match a with | ⟨0, _⟩ => rfl | ⟨1, _⟩ => rfl)
  rw [e]
  rfl

/-- The second layer's messages. -/
theorem scaled2 (x0 x1 x2 x3 x4) :
    Cert.KernelIdeal.EdgeScale40.rowsScaled (E := 1300000) (val_main_v55 (F := F) x0 x1 x2 x3 x4) (val_main_v56 (F := F) x1)
      = val_main_v58 (F := F) x0 x1 x2 x3 x4 := by
  funext i
  rw [val_main_v58_apply, val_main_v57_apply]
  have e : idx_main_v57 i = ix2 ⟨(i 0).val, idx2_lt0 i⟩ (0 : Fin 1) :=
    funext fun a => Fin.ext (by match a with | ⟨0, _⟩ => rfl | ⟨1, _⟩ => rfl)
  rw [e]
  rfl

/-- The hidden features: the aggregated messages plus the first bias, clamped below at zero. -/
theorem hidden (x0 x1 x2 x3) :
    Cert.KernelIdeal.BiasRelu64.rowAdded (M := 100000) (val_main_v43 (F := F) x0 x1 x2) (val_main_v44 (F := F) x3)
      = val_main_v47 (F := F) x0 x1 x2 x3 := by
  funext i
  rw [val_main_v47_apply, val_main_v46_apply, val_main_v45_apply, val_main_call1_v0_apply]
  have e : idx_main_v45 i = ix2 (0 : Fin 1) ⟨(i 1).val, idx2_lt1 i⟩ :=
    funext fun a => Fin.ext (by match a with | ⟨0, _⟩ => rfl | ⟨1, _⟩ => rfl)
  rw [e]
  rfl

/-- The result: the second layer's aggregated messages plus the second bias. -/
theorem result (x0 x1 x2 x3 x4 x5) :
    Cert.KernelIdeal.Bias40.rowAdded (M := 100000) (val_main_v61 (F := F) x0 x1 x2 x3 x4) (val_main_v62 (F := F) x5)
      = val_main_v64 (F := F) x0 x1 x2 x3 x4 x5 := by
  funext i
  rw [val_main_v64_apply, val_main_v63_apply]
  have e : idx_main_v63 i = ix2 (0 : Fin 1) ⟨(i 1).val, idx2_lt1 i⟩ :=
    funext fun a => Fin.ext (by match a with | ⟨0, _⟩ => rfl | ⟨1, _⟩ => rfl)
  rw [e]
  rfl

/-- The second layer's norm column is the first layer's: the reference broadcasts the same norm list twice. -/
theorem norm_col_again (x1) : val_main_v56 (F := F) x1 = val_main_v38 (F := F) x1 := rfl

end Cert.ReferenceIdeal.Stages

end
-- ==== Proof.FeatureProduct64.lean ====
/-
  The first linear layer, x · W1, as the first pallas_call computes it: the grid's ten points each take a band of
  10000 rows of x and the whole of W1, and write the band's product into the same band of rows of the result. A band
  of rows of a product is the product of the band with the whole right factor, because the contracted axis is not cut;
  the ten bands tile the 100000 rows. So the result array ends holding the row-by-column product of the two arrays the
  region finds, whatever those arrays are.
-/
import proofs.«408010_j10986526343434_3_alg».proof.Proof.Gen.KernelIdeal.Frame
import proofs.«408010_j10986526343434_3_alg».proof.Proof.LibMatProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FeatureProduct64

open Cert.KernelIdeal Cert.KernelIdeal.Gen Cert.Lib.MatProduct

variable (V : (c : Dev nD) → (b : Ref sig .tc) → Buf (Elt Ideal) ((c : Thread nD τ).loc b))

theorem zeros2 : (![0, 0] : Fin 2 → Nat) = fun _ => 0 := funext fun a => by fin_cases a <;> rfl

/-- The body's one stored value: the product of the two loaded blocks (a change of float format is the identity on the
    extended reals, and a product accumulated into zero is the product). -/
theorem body_product (x : Vec Ideal S10000x64 .f32) (w : Vec Ideal S64x64 .f32) : k0_pay1 x w = matProd x w := by
  unfold k0_pay1
  exact matmul_plain_zero_eq (M := 10000) (K := 64) (N := 64) none _ _

/-- The three windows' block indices over the grid: the left factor's and the result's row band is the point's number,
    and the right factor is always its one block. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is band t of the product of the two arrays the region finds. -/
theorem written_block (c : Dev nD) (t : Fin cfg0.N) :
    (dat0 V c).flushed 2 t = ((cfg0.win 2).blk t).view.read (Elt Ideal)
      (matProd (V c (Pipeline.arrRef spec0 0)) (V c (Pipeline.arrRef spec0 1))) := by
  show (cfg0.win 2).cut (grid0.coords t) ((dat0 V c).after 2 t) = _
  rw [after0_2]
  unfold out0_2
  rw [View.canon_unit_zero zeros2]
  simp only [View.ld_unit_zero (S := S10000x64) zeros2, View.ld_unit_zero (S := S64x64) zeros2]
  rw [body_product]
  obtain ⟨e0, e1, e2, e3, e4, e5⟩ := block_indices t
  funext j
  show matProd (iblk0 V c 0 t) (iblk0 V c 1 t) j
      = matProd (V c (Pipeline.arrRef spec0 0)) (V c (Pipeline.arrRef spec0 1)) (((cfg0.win 2).blk t).view.emb j)
  refine matProd_block_idx _ _ _ _ j _ (fun k => ?_) (fun k => ?_)
  · show V c (Pipeline.arrRef spec0 0) (((cfg0.win 0).blk t).view.emb (ix2 ⟨(j 0).val, idx2_lt0 j⟩ k))
        = V c (Pipeline.arrRef spec0 0) (ix2 ⟨((((cfg0.win 2).blk t).view.emb j) 0).val, idx2_lt0 _⟩ k)
    refine congrArg (V c (Pipeline.arrRef spec0 0)) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  · show V c (Pipeline.arrRef spec0 1) (((cfg0.win 1).blk t).view.emb (ix2 k ⟨(j 1).val, idx2_lt1 j⟩))
        = V c (Pipeline.arrRef spec0 1) (ix2 k ⟨((((cfg0.win 2).blk t).view.emb j) 1).val, idx2_lt1 _⟩)
    refine congrArg (V c (Pipeline.arrRef spec0 1)) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the result array lies in point t's block exactly when its row lies in band t. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- THE REGION'S VALUE: the result array ends holding the product of the two arrays the region finds. -/
theorem product (c : Dev nD) :
    (dat0 V c).arrAt 2 cfg0.N = matProd (V c (Pipeline.arrRef spec0 0)) (V c (Pipeline.arrRef spec0 1)) :=
  (dat0 V c).arrAt_eq_of_cover 2 _ (fun t _ => written_block V c t) fun i => by
    have hi0 : (i 0).val < 100000 := (i 0).isLt
    have hi1 : (i 1).val < 64 := (i 1).isLt
    have hN : grid0.N = 10 := N_0
    let t : Fin cfg0.N := ⟨(i 0).val / 10000, by show (i 0).val / 10000 < grid0.N; omega⟩
    obtain ⟨e0, e1, e2, e3, e4, e5⟩ := block_indices t
    refine ⟨t, flush0_2 t, ?_⟩
    rw [mem_block]
    intro a
    match a with
    | ⟨0, _⟩ => show win0_2.index t (0 : Fin 2) * 10000 ≤ (i 0).val ∧ (i 0).val < win0_2.index t (0 : Fin 2) * 10000 + 10000
                rw [e4]; show (i 0).val / 10000 * 10000 ≤ (i 0).val ∧ (i 0).val < (i 0).val / 10000 * 10000 + 10000; omega
    | ⟨1, _⟩ => show win0_2.index t (1 : Fin 2) * 64 ≤ (i 1).val ∧ (i 1).val < win0_2.index t (1 : Fin 2) * 64 + 64
                rw [e5]; omega

end Cert.KernelIdeal.FeatureProduct64

end
-- ==== Proof.FeatureProduct40.lean ====
/-
  The second linear layer, h · W3, as the fourth pallas_call computes it: the grid's ten points each take a band of
  10000 rows of the hidden features h and the whole of W3, and write the band's product into the same band of rows of the result. A band
  of rows of a product is the product of the band with the whole right factor, because the contracted axis is not cut;
  the ten bands tile the 100000 rows. The body first casts the loaded band to its own shape, which changes nothing.
  So the result array ends holding the row-by-column product of the two arrays the
  region finds, whatever those arrays are.
-/
import proofs.«408010_j10986526343434_3_alg».proof.Proof.Gen.KernelIdeal.Frame
import proofs.«408010_j10986526343434_3_alg».proof.Proof.LibMatProduct
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FeatureProduct40

open Cert.KernelIdeal Cert.KernelIdeal.Gen Cert.Lib.MatProduct

variable (V : (c : Dev nD) → (b : Ref sig .tc) → Buf (Elt Ideal) ((c : Thread nD τ).loc b))

theorem zeros2 : (![0, 0] : Fin 2 → Nat) = fun _ => 0 := funext fun a => by fin_cases a <;> rfl

/-- The body's one stored value: the product of the two loaded blocks (a change of float format is the identity on the
    extended reals, and a product accumulated into zero is the product). -/
theorem body_product (x : Vec Ideal S10000x64 .f32) (w : Vec Ideal S64x40 .f32) : k3_pay1 x w = matProd x w := by
  unfold k3_pay1
  simp only [shapeCast_self]
  exact matmul_plain_zero_eq (M := 10000) (K := 64) (N := 40) none _ _

/-- The three windows' block indices over the grid: the left factor's and the result's row band is the point's number,
    and the right factor is always its one block. -/
theorem block_indices : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is band t of the product of the two arrays the region finds. -/
theorem written_block (c : Dev nD) (t : Fin cfg3.N) :
    (dat3 V c).flushed 2 t = ((cfg3.win 2).blk t).view.read (Elt Ideal)
      (matProd (V c (Pipeline.arrRef spec3 0)) (V c (Pipeline.arrRef spec3 1))) := by
  show (cfg3.win 2).cut (grid3.coords t) ((dat3 V c).after 2 t) = _
  rw [after3_2]
  unfold out3_2
  rw [View.canon_unit_zero zeros2]
  simp only [View.ld_unit_zero (S := S10000x64) zeros2, View.ld_unit_zero (S := S64x40) zeros2]
  rw [body_product]
  obtain ⟨e0, e1, e2, e3, e4, e5⟩ := block_indices t
  funext j
  show matProd (iblk3 V c 0 t) (iblk3 V c 1 t) j
      = matProd (V c (Pipeline.arrRef spec3 0)) (V c (Pipeline.arrRef spec3 1)) (((cfg3.win 2).blk t).view.emb j)
  refine matProd_block_idx _ _ _ _ j _ (fun k => ?_) (fun k => ?_)
  · show V c (Pipeline.arrRef spec3 0) (((cfg3.win 0).blk t).view.emb (ix2 ⟨(j 0).val, idx2_lt0 j⟩ k))
        = V c (Pipeline.arrRef spec3 0) (ix2 ⟨((((cfg3.win 2).blk t).view.emb j) 0).val, idx2_lt0 _⟩ k)
    refine congrArg (V c (Pipeline.arrRef spec3 0)) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  · show V c (Pipeline.arrRef spec3 1) (((cfg3.win 1).blk t).view.emb (ix2 k ⟨(j 1).val, idx2_lt1 j⟩))
        = V c (Pipeline.arrRef spec3 1) (ix2 k ⟨((((cfg3.win 2).blk t).view.emb j) 1).val, idx2_lt1 _⟩)
    refine congrArg (V c (Pipeline.arrRef spec3 1)) (funext fun a => Fin.ext ?_)
    match a with
    | ⟨0, _⟩ => show win3_1.index t (0 : Fin 2) * 64 + 1 * k.val = k.val; omega
    | ⟨1, _⟩ => show win3_1.index t (1 : Fin 2) * 40 + 1 * (j 1).val = win3_2.index t (1 : Fin 2) * 40 + 1 * (j 1).val; omega

/-- An index of the result array lies in point t's block exactly when its row lies in band t. -/
theorem mem_block (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v46).slice (win3_2.rect t)).set ↔ _
  rw [View.set_slice_whole, Rect.mem_set_unit]
  exact Iff.rfl

/-- THE REGION'S VALUE: the result array ends holding the product of the two arrays the region finds. -/
theorem product (c : Dev nD) :
    (dat3 V c).arrAt 2 cfg3.N = matProd (V c (Pipeline.arrRef spec3 0)) (V c (Pipeline.arrRef spec3 1)) :=
  (dat3 V c).arrAt_eq_of_cover 2 _ (fun t _ => written_block V c t) fun i => by
    have hi0 : (i 0).val < 100000 := (i 0).isLt
    have hi1 : (i 1).val < 40 := (i 1).isLt
    have hN : grid3.N = 10 := N_3
    let t : Fin cfg3.N := ⟨(i 0).val / 10000, by show (i 0).val / 10000 < grid3.N; omega⟩
    obtain ⟨e0, e1, e2, e3, e4, e5⟩ := block_indices t
    refine ⟨t, flush3_2 t, ?_⟩
    rw [mem_block]
    intro a
    match a with
    | ⟨0, _⟩ => show win3_2.index t (0 : Fin 2) * 10000 ≤ (i 0).val ∧ (i 0).val < win3_2.index t (0 : Fin 2) * 10000 + 10000
                rw [e4]; show (i 0).val / 10000 * 10000 ≤ (i 0).val ∧ (i 0).val < (i 0).val / 10000 * 10000 + 10000; omega
    | ⟨1, _⟩ => show win3_2.index t (1 : Fin 2) * 40 ≤ (i 1).val ∧ (i 1).val < win3_2.index t (1 : Fin 2) * 40 + 40
                rw [e5]; omega

end Cert.KernelIdeal.FeatureProduct40

end
-- ==== Proof.Chain.lean ====
/-
  The kernel's result, boundary by boundary. Between the launch and the return the program's buffers pass through thirteen
  boundaries (a stretch of host operations or a pallas_call between two of them). At each boundary the buffers that later
  steps read hold the reference's stage values of the launch arguments: the sources, the destinations, the norm column
  and the two bias rows from the third boundary on, and one new stage per step — the first product, its rows gathered
  along the sources, the messages, their sum per destination, the hidden features, and the same five for the second
  layer. A host stretch carries the invariant because it applies the reference's own operations; a pallas_call carries it
  by its region's value (a product, rows scaled, a row added); a buffer a step does not write is carried unchanged.
-/
import proofs.«408010_j10986526343434_3_alg».proof.Proof.Gen.KernelIdeal.Frame
import proofs.«408010_j10986526343434_3_alg».proof.Proof.HostStretches
import proofs.«408010_j10986526343434_3_alg».proof.Proof.RefStages
import proofs.«408010_j10986526343434_3_alg».proof.Proof.FeatureProduct64
import proofs.«408010_j10986526343434_3_alg».proof.Proof.FeatureProduct40

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.ReferenceIdeal.ReadP Cert.KernelIdeal.HostStretches Cert.Lib.MatProduct

variable (m : (ℓ : Loc nD τ sig) → Buf (Elt Ideal) ℓ) (ρ : Dev nD → PrngReg) (c : Dev nD)

/-- The six launch arguments on core c. -/
abbrev X0 := m ((c.tc : Thread nD τ).loc main_arg0)
abbrev X1 := m ((c.tc : Thread nD τ).loc main_arg1)
abbrev X2 := m ((c.tc : Thread nD τ).loc main_arg2)
abbrev X3 := m ((c.tc : Thread nD τ).loc main_arg3)
abbrev X4 := m ((c.tc : Thread nD τ).loc main_arg4)
abbrev X5 := m ((c.tc : Thread nD τ).loc main_arg5)

/-! ## Before the first pallas_call: the graph's normalisation -/

theorem w1_v3 : W1 m ρ c (Proc.devRef .tc main_v3) = val_main_v3 (F := Ideal) (X1 m c) :=
  src (W0 m ρ c)
theorem w1_v6 : W1 m ρ c (Proc.devRef .tc main_v6) = val_main_v6 (F := Ideal) (X1 m c) :=
  dst (W0 m ρ c)
theorem w1_v12 : W1 m ρ c (Proc.devRef .tc main_v12) = val_main_v12 (F := Ideal) (X1 m c) :=
  deg_pos (W0 m ρ c)
theorem w1_v13 : W1 m ρ c (Proc.devRef .tc main_v13) = val_main_v13 (F := Ideal) (X1 m c) :=
  deg_rsqrt (W0 m ρ c)
theorem w1_cst_2 : W1 m ρ c (Proc.devRef .tc main_cst_2) = val_main_cst_2 (F := Ideal) :=
  zero_lit (W0 m ρ c)
theorem w1_arg0 : W1 m ρ c (Proc.devRef .tc main_arg0) = (X0 m c) :=
  s0_arg0 (W0 m ρ c)
theorem w1_arg2 : W1 m ρ c (Proc.devRef .tc main_arg2) = (X2 m c) :=
  s0_arg2 (W0 m ρ c)
theorem w1_arg3 : W1 m ρ c (Proc.devRef .tc main_arg3) = (X3 m c) :=
  s0_arg3 (W0 m ρ c)
theorem w1_arg4 : W1 m ρ c (Proc.devRef .tc main_arg4) = (X4 m c) :=
  s0_arg4 (W0 m ρ c)
theorem w1_arg5 : W1 m ρ c (Proc.devRef .tc main_arg5) = (X5 m c) :=
  s0_arg5 (W0 m ρ c)
theorem w2_v14 : W2 m ρ c (Proc.devRef .tc main_v14) = val_main_v14 (F := Ideal) (X1 m c) :=
  dinv (W1 m ρ c) (X1 m c) (w1_v12 m ρ c) (w1_v13 m ρ c) (w1_cst_2 m ρ c)
theorem w2_v3 : W2 m ρ c (Proc.devRef .tc main_v3) = val_main_v3 (F := Ideal) (X1 m c) :=
  (s1_v3 (W1 m ρ c)).trans (w1_v3 m ρ c)
theorem w2_v6 : W2 m ρ c (Proc.devRef .tc main_v6) = val_main_v6 (F := Ideal) (X1 m c) :=
  (s1_v6 (W1 m ρ c)).trans (w1_v6 m ρ c)
theorem w2_arg0 : W2 m ρ c (Proc.devRef .tc main_arg0) = (X0 m c) :=
  (s1_arg0 (W1 m ρ c)).trans (w1_arg0 m ρ c)
theorem w2_arg2 : W2 m ρ c (Proc.devRef .tc main_arg2) = (X2 m c) :=
  (s1_arg2 (W1 m ρ c)).trans (w1_arg2 m ρ c)
theorem w2_arg3 : W2 m ρ c (Proc.devRef .tc main_arg3) = (X3 m c) :=
  (s1_arg3 (W1 m ρ c)).trans (w1_arg3 m ρ c)
theorem w2_arg4 : W2 m ρ c (Proc.devRef .tc main_arg4) = (X4 m c) :=
  (s1_arg4 (W1 m ρ c)).trans (w1_arg4 m ρ c)
theorem w2_arg5 : W2 m ρ c (Proc.devRef .tc main_arg5) = (X5 m c) :=
  (s1_arg5 (W1 m ρ c)).trans (w1_arg5 m ρ c)
theorem w3_v30 : W3 m ρ c (Proc.devRef .tc main_v30) = val_main_v38 (F := Ideal) (X1 m c) :=
  norm_col (W2 m ρ c) (X1 m c) (w2_v3 m ρ c) (w2_v6 m ρ c) (w2_v14 m ρ c)
theorem w3_v31 : W3 m ρ c (Proc.devRef .tc main_v31) = val_main_v44 (F := Ideal) (X3 m c) :=
  (bias1_row (W2 m ρ c)).trans (congrArg (val_main_v44 (F := Ideal)) (w2_arg3 m ρ c))
theorem w3_v32 : W3 m ρ c (Proc.devRef .tc main_v32) = val_main_v62 (F := Ideal) (X5 m c) :=
  (bias3_row (W2 m ρ c)).trans (congrArg (val_main_v62 (F := Ideal)) (w2_arg5 m ρ c))
theorem w3_v3 : W3 m ρ c (Proc.devRef .tc main_v3) = val_main_v3 (F := Ideal) (X1 m c) :=
  (s2_v3 (W2 m ρ c)).trans (w2_v3 m ρ c)
theorem w3_v6 : W3 m ρ c (Proc.devRef .tc main_v6) = val_main_v6 (F := Ideal) (X1 m c) :=
  (s2_v6 (W2 m ρ c)).trans (w2_v6 m ρ c)
theorem w3_arg0 : W3 m ρ c (Proc.devRef .tc main_arg0) = (X0 m c) :=
  (s2_arg0 (W2 m ρ c)).trans (w2_arg0 m ρ c)
theorem w3_arg2 : W3 m ρ c (Proc.devRef .tc main_arg2) = (X2 m c) :=
  (s2_arg2 (W2 m ρ c)).trans (w2_arg2 m ρ c)
theorem w3_arg4 : W3 m ρ c (Proc.devRef .tc main_arg4) = (X4 m c) :=
  (s2_arg4 (W2 m ρ c)).trans (w2_arg4 m ρ c)

/-! ## The first layer: product, gather, messages, sum per destination, bias and relu -/

theorem w4_v33 : W4 m ρ c (Proc.devRef .tc main_v33) = val_main_v30 (F := Ideal) (X0 m c) (X2 m c) :=
  by
  refine (W4_arr m ρ c 2).trans ((FeatureProduct64.product (V3 m ρ) c).trans ?_)
  show matProd (W3 m ρ c (Proc.devRef .tc main_arg0)) (W3 m ρ c (Proc.devRef .tc main_arg2)) = _
  rw [w3_arg0, w3_arg2]
  exact Cert.ReferenceIdeal.Stages.product1 _ _
theorem w4_v3 : W4 m ρ c (Proc.devRef .tc main_v3) = val_main_v3 (F := Ideal) (X1 m c) :=
  (W4_of_ne m ρ c main_v3 (by decide)).trans (w3_v3 m ρ c)
theorem w4_v6 : W4 m ρ c (Proc.devRef .tc main_v6) = val_main_v6 (F := Ideal) (X1 m c) :=
  (W4_of_ne m ρ c main_v6 (by decide)).trans (w3_v6 m ρ c)
theorem w4_v30 : W4 m ρ c (Proc.devRef .tc main_v30) = val_main_v38 (F := Ideal) (X1 m c) :=
  (W4_of_ne m ρ c main_v30 (by decide)).trans (w3_v30 m ρ c)
theorem w4_v31 : W4 m ρ c (Proc.devRef .tc main_v31) = val_main_v44 (F := Ideal) (X3 m c) :=
  (W4_of_ne m ρ c main_v31 (by decide)).trans (w3_v31 m ρ c)
theorem w4_v32 : W4 m ρ c (Proc.devRef .tc main_v32) = val_main_v62 (F := Ideal) (X5 m c) :=
  (W4_of_ne m ρ c main_v32 (by decide)).trans (w3_v32 m ρ c)
theorem w4_arg4 : W4 m ρ c (Proc.devRef .tc main_arg4) = (X4 m c) :=
  (W4_of_ne m ρ c main_arg4 (by decide)).trans (w3_arg4 m ρ c)
theorem w5_v40 : W5 m ρ c (Proc.devRef .tc main_v40) = val_main_v37 (F := Ideal) (X0 m c) (X1 m c) (X2 m c) :=
  gathered1 (W4 m ρ c) (X0 m c) (X1 m c) (X2 m c) (w4_v3 m ρ c) (w4_v33 m ρ c)
theorem w5_v3 : W5 m ρ c (Proc.devRef .tc main_v3) = val_main_v3 (F := Ideal) (X1 m c) :=
  (s3_v3 (W4 m ρ c)).trans (w4_v3 m ρ c)
theorem w5_v6 : W5 m ρ c (Proc.devRef .tc main_v6) = val_main_v6 (F := Ideal) (X1 m c) :=
  (s3_v6 (W4 m ρ c)).trans (w4_v6 m ρ c)
theorem w5_v30 : W5 m ρ c (Proc.devRef .tc main_v30) = val_main_v38 (F := Ideal) (X1 m c) :=
  (s3_v30 (W4 m ρ c)).trans (w4_v30 m ρ c)
theorem w5_v31 : W5 m ρ c (Proc.devRef .tc main_v31) = val_main_v44 (F := Ideal) (X3 m c) :=
  (s3_v31 (W4 m ρ c)).trans (w4_v31 m ρ c)
theorem w5_v32 : W5 m ρ c (Proc.devRef .tc main_v32) = val_main_v62 (F := Ideal) (X5 m c) :=
  (s3_v32 (W4 m ρ c)).trans (w4_v32 m ρ c)
theorem w5_arg4 : W5 m ρ c (Proc.devRef .tc main_arg4) = (X4 m c) :=
  (s3_arg4 (W4 m ρ c)).trans (w4_arg4 m ρ c)
theorem w6_v41 : W6 m ρ c (Proc.devRef .tc main_v41) = val_main_v40 (F := Ideal) (X0 m c) (X1 m c) (X2 m c) :=
  by
  refine (W6_arr m ρ c 2).trans ((EdgeScale64.scaled_rows (V5 m ρ) c).trans ?_)
  show EdgeScale64.rowsScaled (W5 m ρ c (Proc.devRef .tc main_v40)) (W5 m ρ c (Proc.devRef .tc main_v30)) = _
  rw [w5_v40, w5_v30]
  exact Cert.ReferenceIdeal.Stages.scaled1 _ _ _
theorem w6_v3 : W6 m ρ c (Proc.devRef .tc main_v3) = val_main_v3 (F := Ideal) (X1 m c) :=
  (W6_of_ne m ρ c main_v3 (by decide)).trans (w5_v3 m ρ c)
theorem w6_v6 : W6 m ρ c (Proc.devRef .tc main_v6) = val_main_v6 (F := Ideal) (X1 m c) :=
  (W6_of_ne m ρ c main_v6 (by decide)).trans (w5_v6 m ρ c)
/-- The norm column is one of this pallas_call's inputs: the call reads it and writes nothing back to it. -/
theorem w6_v30 : W6 m ρ c (Proc.devRef .tc main_v30) = val_main_v38 (F := Ideal) (X1 m c) :=
  ((W6_arr m ρ c 1).trans (((dat1 (V5 m ρ) c).arrAt_in 1 rfl _).trans (A_eq1 (V5 m ρ) c 1))).trans (w5_v30 m ρ c)
theorem w6_v31 : W6 m ρ c (Proc.devRef .tc main_v31) = val_main_v44 (F := Ideal) (X3 m c) :=
  (W6_of_ne m ρ c main_v31 (by decide)).trans (w5_v31 m ρ c)
theorem w6_v32 : W6 m ρ c (Proc.devRef .tc main_v32) = val_main_v62 (F := Ideal) (X5 m c) :=
  (W6_of_ne m ρ c main_v32 (by decide)).trans (w5_v32 m ρ c)
theorem w6_arg4 : W6 m ρ c (Proc.devRef .tc main_arg4) = (X4 m c) :=
  (W6_of_ne m ρ c main_arg4 (by decide)).trans (w5_arg4 m ρ c)
theorem w7_v44 : W7 m ρ c (Proc.devRef .tc main_v44) = val_main_v43 (F := Ideal) (X0 m c) (X1 m c) (X2 m c) :=
  aggregated1 (W6 m ρ c) (X0 m c) (X1 m c) (X2 m c) (w6_v6 m ρ c) (w6_v41 m ρ c)
theorem w7_v3 : W7 m ρ c (Proc.devRef .tc main_v3) = val_main_v3 (F := Ideal) (X1 m c) :=
  (s4_v3 (W6 m ρ c)).trans (w6_v3 m ρ c)
theorem w7_v6 : W7 m ρ c (Proc.devRef .tc main_v6) = val_main_v6 (F := Ideal) (X1 m c) :=
  (s4_v6 (W6 m ρ c)).trans (w6_v6 m ρ c)
theorem w7_v30 : W7 m ρ c (Proc.devRef .tc main_v30) = val_main_v38 (F := Ideal) (X1 m c) :=
  (s4_v30 (W6 m ρ c)).trans (w6_v30 m ρ c)
theorem w7_v31 : W7 m ρ c (Proc.devRef .tc main_v31) = val_main_v44 (F := Ideal) (X3 m c) :=
  (s4_v31 (W6 m ρ c)).trans (w6_v31 m ρ c)
theorem w7_v32 : W7 m ρ c (Proc.devRef .tc main_v32) = val_main_v62 (F := Ideal) (X5 m c) :=
  (s4_v32 (W6 m ρ c)).trans (w6_v32 m ρ c)
theorem w7_arg4 : W7 m ρ c (Proc.devRef .tc main_arg4) = (X4 m c) :=
  (s4_arg4 (W6 m ρ c)).trans (w6_arg4 m ρ c)
theorem w8_v45 : W8 m ρ c (Proc.devRef .tc main_v45) = val_main_v47 (F := Ideal) (X0 m c) (X1 m c) (X2 m c) (X3 m c) :=
  by
  refine (W8_arr m ρ c 2).trans ((BiasRelu64.row_added (V7 m ρ) c).trans ?_)
  show BiasRelu64.rowAdded (W7 m ρ c (Proc.devRef .tc main_v44)) (W7 m ρ c (Proc.devRef .tc main_v31)) = _
  rw [w7_v44, w7_v31]
  exact Cert.ReferenceIdeal.Stages.hidden _ _ _ _
theorem w8_v3 : W8 m ρ c (Proc.devRef .tc main_v3) = val_main_v3 (F := Ideal) (X1 m c) :=
  (W8_of_ne m ρ c main_v3 (by decide)).trans (w7_v3 m ρ c)
theorem w8_v6 : W8 m ρ c (Proc.devRef .tc main_v6) = val_main_v6 (F := Ideal) (X1 m c) :=
  (W8_of_ne m ρ c main_v6 (by decide)).trans (w7_v6 m ρ c)
theorem w8_v30 : W8 m ρ c (Proc.devRef .tc main_v30) = val_main_v38 (F := Ideal) (X1 m c) :=
  (W8_of_ne m ρ c main_v30 (by decide)).trans (w7_v30 m ρ c)
theorem w8_v32 : W8 m ρ c (Proc.devRef .tc main_v32) = val_main_v62 (F := Ideal) (X5 m c) :=
  (W8_of_ne m ρ c main_v32 (by decide)).trans (w7_v32 m ρ c)
theorem w8_arg4 : W8 m ρ c (Proc.devRef .tc main_arg4) = (X4 m c) :=
  (W8_of_ne m ρ c main_arg4 (by decide)).trans (w7_arg4 m ρ c)

/-! ## The second layer: product, gather, messages, sum per destination, bias -/

theorem w9_v46 : W9 m ρ c (Proc.devRef .tc main_v46) = val_main_v48 (F := Ideal) (X0 m c) (X1 m c) (X2 m c) (X3 m c) (X4 m c) :=
  by
  refine (W9_arr m ρ c 2).trans ((FeatureProduct40.product (V8 m ρ) c).trans ?_)
  show matProd (W8 m ρ c (Proc.devRef .tc main_v45)) (W8 m ρ c (Proc.devRef .tc main_arg4)) = _
  rw [w8_v45, w8_arg4]
  exact Cert.ReferenceIdeal.Stages.product2 _ _ _ _ _
theorem w9_v3 : W9 m ρ c (Proc.devRef .tc main_v3) = val_main_v3 (F := Ideal) (X1 m c) :=
  (W9_of_ne m ρ c main_v3 (by decide)).trans (w8_v3 m ρ c)
theorem w9_v6 : W9 m ρ c (Proc.devRef .tc main_v6) = val_main_v6 (F := Ideal) (X1 m c) :=
  (W9_of_ne m ρ c main_v6 (by decide)).trans (w8_v6 m ρ c)
theorem w9_v30 : W9 m ρ c (Proc.devRef .tc main_v30) = val_main_v38 (F := Ideal) (X1 m c) :=
  (W9_of_ne m ρ c main_v30 (by decide)).trans (w8_v30 m ρ c)
theorem w9_v32 : W9 m ρ c (Proc.devRef .tc main_v32) = val_main_v62 (F := Ideal) (X5 m c) :=
  (W9_of_ne m ρ c main_v32 (by decide)).trans (w8_v32 m ρ c)
theorem w10_v53 : W10 m ρ c (Proc.devRef .tc main_v53) = val_main_v55 (F := Ideal) (X0 m c) (X1 m c) (X2 m c) (X3 m c) (X4 m c) :=
  gathered2 (W9 m ρ c) (X0 m c) (X1 m c) (X2 m c) (X3 m c) (X4 m c) (w9_v3 m ρ c) (w9_v46 m ρ c)
theorem w10_v6 : W10 m ρ c (Proc.devRef .tc main_v6) = val_main_v6 (F := Ideal) (X1 m c) :=
  (s5_v6 (W9 m ρ c)).trans (w9_v6 m ρ c)
theorem w10_v30 : W10 m ρ c (Proc.devRef .tc main_v30) = val_main_v38 (F := Ideal) (X1 m c) :=
  (s5_v30 (W9 m ρ c)).trans (w9_v30 m ρ c)
theorem w10_v32 : W10 m ρ c (Proc.devRef .tc main_v32) = val_main_v62 (F := Ideal) (X5 m c) :=
  (s5_v32 (W9 m ρ c)).trans (w9_v32 m ρ c)
theorem w11_v54 : W11 m ρ c (Proc.devRef .tc main_v54) = val_main_v58 (F := Ideal) (X0 m c) (X1 m c) (X2 m c) (X3 m c) (X4 m c) :=
  by
  refine (W11_arr m ρ c 2).trans ((EdgeScale40.scaled_rows (V10 m ρ) c).trans ?_)
  show EdgeScale40.rowsScaled (W10 m ρ c (Proc.devRef .tc main_v53)) (W10 m ρ c (Proc.devRef .tc main_v30)) = _
  rw [w10_v53, w10_v30]
  exact Cert.ReferenceIdeal.Stages.scaled2 _ _ _ _ _
theorem w11_v6 : W11 m ρ c (Proc.devRef .tc main_v6) = val_main_v6 (F := Ideal) (X1 m c) :=
  (W11_of_ne m ρ c main_v6 (by decide)).trans (w10_v6 m ρ c)
theorem w11_v32 : W11 m ρ c (Proc.devRef .tc main_v32) = val_main_v62 (F := Ideal) (X5 m c) :=
  (W11_of_ne m ρ c main_v32 (by decide)).trans (w10_v32 m ρ c)
theorem w12_v57 : W12 m ρ c (Proc.devRef .tc main_v57) = val_main_v61 (F := Ideal) (X0 m c) (X1 m c) (X2 m c) (X3 m c) (X4 m c) :=
  aggregated2 (W11 m ρ c) (X0 m c) (X1 m c) (X2 m c) (X3 m c) (X4 m c) (w11_v6 m ρ c) (w11_v54 m ρ c)
theorem w12_v32 : W12 m ρ c (Proc.devRef .tc main_v32) = val_main_v62 (F := Ideal) (X5 m c) :=
  (s6_v32 (W11 m ρ c)).trans (w11_v32 m ρ c)
/-- THE RESULT: at the return the result buffer holds the reference's last stage of the launch arguments. -/
theorem w13_v58 : W13 m ρ c (Proc.devRef .tc main_v58) = val_main_v64 (F := Ideal) (X0 m c) (X1 m c) (X2 m c) (X3 m c) (X4 m c) (X5 m c) :=
  by
  refine (W13_arr m ρ c 2).trans ((Bias40.row_added (V12 m ρ) c).trans ?_)
  show Bias40.rowAdded (W12 m ρ c (Proc.devRef .tc main_v57)) (W12 m ρ c (Proc.devRef .tc main_v32)) = _
  rw [w12_v57, w12_v32]
  exact Cert.ReferenceIdeal.Stages.result _ _ _ _ _ _

end Cert.KernelIdeal.Chain

end
-- ==== Proof.lean ====
/-
  A two-layer graph convolution against its jnp reference, over the extended reals.

  Both programs first build the graph's normalisation from the edge list: self-loops appended to the sources and the
  destinations, the degree of every node by a scatter-add of ones, its inverse square root where it is positive, and each
  edge's norm, the product of the two ends' inverse square roots. Each layer is then: the features times a weight matrix;
  the rows of that product gathered along the sources; every gathered row scaled by its edge's norm; the scaled rows
  summed per destination by a scatter-add; a bias row added (and, after the first layer, the maximum with zero).

  The kernel does the product, the scaling and the bias of each layer in pallas_calls (six in all) and leaves the gathers
  and scatter-adds to the host, where they are the reference's own operations on the same index arrays. So the two
  programs agree stage by stage, and no law of arithmetic beyond 0 + x = x (a product accumulated into zero) is used:
  the precondition is never opened. Per pallas_call the blocks tile the array along the rows and the body is the same
  function of every block, so each call's result is one whole-array function of what it finds (a row-by-column
  product, rows scaled by a column, a row added to every row); between the calls a host stretch maps stage values to
  stage values. `Chain.w13_v58` is the composition: the result buffer at the return holds the reference's last stage of
  the launch arguments. The kernel's run with its result buffer in the post is `Gen.run_result`; the reference's run and
  its stages are the reference's run module and its read-at-a-stage module. The three frames are the runs with the
  results dropped, and the idealization rewrote nothing.
-/
import proofs.«408010_j10986526343434_3_alg».proof.Defs
import proofs.«408010_j10986526343434_3_alg».proof.Proof.Gen.Kernel
import proofs.«408010_j10986526343434_3_alg».proof.Proof.Gen.Kernel.Frame
import proofs.«408010_j10986526343434_3_alg».proof.Proof.Gen.KernelIdeal
import proofs.«408010_j10986526343434_3_alg».proof.Proof.Gen.KernelIdeal.Frame
import proofs.«408010_j10986526343434_3_alg».proof.Proof.Gen.ReferenceIdeal
import proofs.«408010_j10986526343434_3_alg».proof.Proof.Gen.Pre_finite_inputs
import proofs.«408010_j10986526343434_3_alg».proof.Proof.RefRun
import proofs.«408010_j10986526343434_3_alg».proof.Proof.RefRead
import proofs.«408010_j10986526343434_3_alg».proof.Proof.KernelRun
import proofs.«408010_j10986526343434_3_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) launch arguments in their result buffers. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v58),
    Cert.KernelIdeal.Gen.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq,
    (hagree c).1, (hagree c).2.1, (hagree c).2.2.1, (hagree c).2.2.2.1, (hagree c).2.2.2.2.1, (hagree c).2.2.2.2.2]
  exact (Cert.KernelIdeal.Chain.w13_v58 m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
